-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1000 : Shape := ⟨2, ![4096, 1000]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1000 : S_.BroadcastsInDim S4096x1000 (![] : Fin 0 → Fin S4096x1000.rank)
  reducesTo_S4096x1000_S_d0_1 : S4096x1000.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x1000 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1000 .f32 := Host.absf main_arg1
  let main_cst_0 : FVec F S_ .f32 := constant S_ .f32 0x7F800000#32
  let main_v5 : FVec F S4096x1000 .f32 := broadcastInDim S4096x1000 ![] bcast_S_S4096x1000 main_cst_0
  let main_v6 : IVec S4096x1000 1 := cmpf .olt main_v4 main_v5
  let main_c_1 : IVec S_ 1 := constantI S_ 1 1#1
  let main_v7 : IVec S_ 1 := (fun x v => Host.reduce IntOp.andi x v reducesTo_S4096x1000_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S4096x1000 : Shape := ⟨2, ![4096, 1000]⟩
abbrev S4096x1 : Shape := ⟨2, ![4096, 1]⟩
abbrev S512x1000 : Shape := ⟨2, ![512, 1000]⟩
abbrev S512x1 : Shape := ⟨2, ![512, 1]⟩
abbrev S512 : Shape := ⟨1, ![512]⟩
abbrev S512x1024 : Shape := ⟨2, ![512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x1000, .f32⟩
  | .hbm, ⟨2, _⟩ => ⟨S4096x4096, .f32⟩
  | .hbm, ⟨3, _⟩ => ⟨S4096x4096, .f32⟩
  | .hbm, ⟨4, _⟩ => ⟨S4096x1, .f32⟩
  | .hbm, ⟨5, _⟩ => ⟨S4096x4096, .f32⟩
  | .local _ .vmem, ⟨0, _⟩ => ⟨S512x1000, .f32⟩
  | .local _ .vmem, ⟨1, _⟩ => ⟨S512x1000, .f32⟩
  | .local _ .vmem, ⟨2, _⟩ => ⟨S512x1, .f32⟩
  | .local _ .vmem, ⟨3, _⟩ => ⟨S512x1, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S512x1_S512x1_0_0 : ∀ a, (![0, 0] : Fin 2 → Nat) a + S512x1.size a ≤ S512x1.size a
  h_S512x1 : 0 < S512x1.numel
  inb_S512x1024_S512x1024_0_0 : ∀ a, (![0, 0] : Fin 2 → Nat) a + S512x1024.size a ≤ S512x1024.size a
  h_S512x1024 : 0 < S512x1024.numel
  shapeCasts_S512x1_S512x1 : S512x1.ShapeCasts S512x1
  broadcasts_S512x1_S512x1024 : S512x1.Broadcasts S512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .f32 = 32 ∨ (Rect.block (s := S4096x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .f32 = 32 ∨ (Rect.block (s := S4096x4096) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .f32 = 32 ∨ (Rect.block (s := S4096x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S4096x4096.size a
  hwx1_4 : ∀ i : grid1.Coords, EltTy.bits .f32 = 32 ∨ (Rect.block (s := S4096x4096) S512x1024.size (cc1_transform_4 i) (hinb1_4 i)).WholeWords (EltTy.packing .f32)

variable [Facts₀]

abbrev win0_0 : Pipeline.Window sig grid0 :=
  Pipeline.Window.ofSpec (Memref.whole main_arg1) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x1000 : Shape := ⟨2, ![4096, 1000]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1000, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x1000, .f32⟩
  | .hbm, ⟨6, _⟩ => ⟨S4096x1000, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x1000, .f32⟩
  | .hbm, ⟨14, _⟩ => ⟨S4096x1000, .f32⟩
  | .hbm, ⟨15, _⟩ => ⟨S4096x1000, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1000, .f32⟩
  | .hbm, ⟨20, _⟩ => ⟨S4096x1000, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .i1⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  bcast_S_S4096x1000 : S_.BroadcastsInDim S4096x1000 (![] : Fin 0 → Fin S4096x1000.rank)
  reducesTo_S4096x1000_S4096_d1 : S4096x1000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1000_0_1 : S4096x1.BroadcastsInDim S4096x1000 (![0, 1] : Fin 2 → Fin S4096x1000.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.RowConfidence.lean ====
/-
  The one law that joins the two programs, stated over a single row of logits.

  Both programs shift a row `r` by its maximum `M`, exponentiate, and sum: `S = ∑ₖ exp (rₖ - M)`.  One of them then takes
  the confidence as `1 / S`; the other forms every softmax probability `exp (rₖ - M) / S` and takes the largest.  For a row of
  REAL numbers these agree: every `exp (rₖ - M)` is at most `exp 0 = 1`, the bound is attained at an index where the row
  attains its maximum, `S` is a positive real, and dividing by a positive real is monotone.  (On a row with an infinite
  entry the difference `rₖ - M` can be `∞ - ∞`, which is why the statement asks for real entries.)

  The row's maximum is a fold of `max` from `-∞` and the multiplications and divisions by `1.0` the two texts carry are kept
  as written, so that each side's term meets this file's definitions without rearrangement.
-/
import Idealize.ShloMosaic.PureOps.Ideal.Laws
import Idealize.ShloMosaic.Lib.IdealHost
import Mathlib.Data.Finset.Fold

noncomputable section

namespace Cert.RowConfidence

open Idealize.ShloMosaic

/-- The f32 word of minus infinity is the bottom of the extended reals. -/
theorem ofBits_ninf_f32 : Ideal.ofBits .f32 0xFF800000#32 = ⊥ := by simp [Ideal.ofBits, Ideal.ieee]

/-- A fold of `max` from `b` over a finite set equals `v` once `v` bounds `b` and every term and some term attains it. -/
theorem fold_max_eq_of_attained {ι : Type} (s : Finset ι) (f : ι → EReal) (b v : EReal) (hb : b ≤ v)
    (hle : ∀ k ∈ s, f k ≤ v) (hat : ∃ k ∈ s, f k = v) : s.fold max b f = v := by
  apply le_antisymm
  · exact (Finset.fold_max_le v).mpr ⟨hb, hle⟩
  · obtain ⟨k, hk, e⟩ := hat
    exact (Finset.le_fold_max v).mpr (Or.inr ⟨k, hk, e.ge⟩)

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division by one is the identity on every extended real. -/
theorem div_one (x : EReal) : Ideal.div x 1 = x := by
  have h := Ideal.div_coe (y := 1) one_ne_zero x
  simpa using h

variable {ι : Type} [Fintype ι]

/-- The confidence as the reciprocal of the shifted exponentials' sum: `1 / ∑ₖ exp (rₖ·1 - maxₖ (rₖ·1))`. -/
def recipOfSum (r : ι → EReal) : EReal :=
  Ideal.div (Ideal.ofBits .f32 0x3F800000#32)
    (∑ k, Ideal.exp (r k * Ideal.ofBits .f32 0x3F800000#32
      - Finset.univ.fold max (Ideal.ofBits .f32 0xFF800000#32) (fun k => r k * Ideal.ofBits .f32 0x3F800000#32)))

/-- The shift the softmax subtracts: the row's maximum (of `rₖ / 1`), joined once more with `-∞`. -/
def softmaxShift (r : ι → EReal) : EReal :=
  max (Ideal.ofBits .f32 0xFF800000#32)
    (Finset.univ.fold max (Ideal.ofBits .f32 0xFF800000#32) (fun k => Ideal.div (r k) (Ideal.ofBits .f32 0x3F800000#32)))

/-- One shifted exponential of the softmax: `exp (rₖ / 1 - shift)`. -/
def softmaxExp (r : ι → EReal) (k : ι) : EReal :=
  Ideal.exp (Ideal.div (r k) (Ideal.ofBits .f32 0x3F800000#32) - softmaxShift r)

/-- The confidence as the largest softmax probability: `maxₖ (exp (rₖ/1 - shift) / (0 + ∑ exp (… )))`. -/
def maxOfSoftmax (r : ι → EReal) : EReal :=
  Finset.univ.fold max (Ideal.ofBits .f32 0xFF800000#32)
    (fun k => Ideal.div (softmaxExp r k) (Ideal.ofBits .f32 0x00000000#32 + ∑ k', softmaxExp r k'))

/-- On a nonempty row of real numbers the largest softmax probability is the reciprocal of the sum of the shifted
    exponentials. -/
theorem maxOfSoftmax_eq_recipOfSum [Nonempty ι] (r : ι → EReal) (hr : ∀ k, ∃ a : ℝ, r k = (a : EReal)) :
    maxOfSoftmax r = recipOfSum r := by
  classical
  choose a ha using hr
  obtain ⟨k0, -, hk0⟩ := Finset.exists_max_image Finset.univ a Finset.univ_nonempty
  have hM : Finset.univ.fold max (⊥ : EReal) (fun k => (a k : EReal)) = (a k0 : EReal) :=
    fold_max_eq_of_attained _ _ _ _ bot_le
      (fun k _ => EReal.coe_le_coe_iff.mpr (hk0 k (Finset.mem_univ k))) ⟨k0, Finset.mem_univ _, rfl⟩
  have hspos : 0 < ∑ k, Real.exp (a k - a k0) := Finset.sum_pos (fun k _ => Real.exp_pos _) Finset.univ_nonempty
  have hsne : (∑ k, Real.exp (a k - a k0)) ≠ 0 := hspos.ne'
  have hK : recipOfSum r = ((1 / ∑ k, Real.exp (a k - a k0) : ℝ) : EReal) := by
    unfold recipOfSum
    simp only [ha, Ideal.ofBits_one_f32, ofBits_ninf_f32, mul_one, hM, ← EReal.coe_sub, Ideal.exp_coe, coe_sum]
    rw [Ideal.div_coe hsne, one_mul]
  have hR : maxOfSoftmax r = ((1 / ∑ k, Real.exp (a k - a k0) : ℝ) : EReal) := by
    unfold maxOfSoftmax softmaxExp softmaxShift
    simp only [ha, Ideal.ofBits_one_f32, ofBits_ninf_f32, Ideal.ofBits_zero_f32, div_one, hM, max_bot_left,
      ← EReal.coe_sub, Ideal.exp_coe, coe_sum, zero_add, Ideal.div_coe hsne, ← EReal.coe_mul]
    refine fold_max_eq_of_attained _ _ _ _ bot_le (fun k _ => EReal.coe_le_coe_iff.mpr ?_) ⟨k0, Finset.mem_univ _, ?_⟩
    · have h1 : Real.exp (a k - a k0) ≤ 1 := Real.exp_le_one_iff.mpr (sub_nonpos.mpr (hk0 k (Finset.mem_univ k)))
      have h2 : 0 ≤ 1 / ∑ k, Real.exp (a k - a k0) := by positivity
      calc Real.exp (a k - a k0) * (1 / ∑ k, Real.exp (a k - a k0))
          ≤ 1 * (1 / ∑ k, Real.exp (a k - a k0)) := mul_le_mul_of_nonneg_right h1 h2
        _ = 1 / ∑ k, Real.exp (a k - a k0) := one_mul _
    · rw [sub_self, Real.exp_zero, one_mul]
  rw [hK, hR]

end Cert.RowConfidence

end
-- ==== Proof.Spec.lean ====
/-
  What both programs compute, as one function of the four argument arrays, index by index.

  Row `p` of the logits gives a confidence `1 / ∑ₖ exp (rₖ - maxₖ rₖ)` (RowConfidence.lean's `recipOfSum`), the confidence
  a noise scale `min (0.1 · (1 + 1 · confidence)) 1` — the literal `0.1` is the f32 word both texts carry, never
  evaluated —, and entry `(p, q)` of the result is `x + (if u < 0.3 then noise · scale_p else 0)`, with `0.3` again the shared
  f32 word and the comparison the ordered one on the extended reals.
-/
import proofs.«138279_j20770461843629_1_alg».proof.Proof.RowConfidence
import Idealize.ShloMosaic.Lib.ValueIdx

noncomputable section

namespace Cert.Spec

open Idealize.ShloMosaic Idealize.ShloMosaic.ValueIdx Cert.RowConfidence

/-- Row `p` of a 4096 × 1000 array, as a function of the column. -/
def logitRow (mo : (⟨2, ![4096, 1000]⟩ : Shape).Idx → EReal) (p : Fin 4096) : Fin 1000 → EReal := fun k => mo (ix2 p k)

/-- The noise scale of a confidence: `min (0.1 · (1 + 1 · conf)) 1`. -/
def scaleOf (conf : EReal) : EReal :=
  min (Ideal.ofBits .f32 0x3DCCCCCD#32 * (Ideal.ofBits .f32 0x3F800000#32 + Ideal.ofBits .f32 0x3F800000#32 * conf))
    (Ideal.ofBits .f32 0x3F800000#32)

/-- Row `p`'s noise scale. -/
def rowScale (mo : (⟨2, ![4096, 1000]⟩ : Shape).Idx → EReal) (p : Fin 4096) : EReal := scaleOf (recipOfSum (logitRow mo p))

/-- One entry of the result from the entries it depends on: `x + (if u < 0.3 then noise · scale else 0)`. -/
def combine (x u noise scale : EReal) : EReal :=
  x + Scalar.select (Ideal.cmp .olt u (Ideal.ofBits .f32 0x3E99999A#32)) (noise * scale) (Ideal.ofBits .f32 0x00000000#32)

/-- The result array: entry `(p, q)` combines the three full-size arrays at `(p, q)` with row `p`'s noise scale. -/
def G (x : (⟨2, ![4096, 4096]⟩ : Shape).Idx → EReal) (mo : (⟨2, ![4096, 1000]⟩ : Shape).Idx → EReal)
    (ru ns : (⟨2, ![4096, 4096]⟩ : Shape).Idx → EReal) : (⟨2, ![4096, 4096]⟩ : Shape).Idx → EReal :=
  fun i => combine (x i) (ru i) (ns i) (rowScale mo (i 0))

end Cert.Spec

end
-- ==== Proof.LibRowReduce.lean ====
/-
  A row-wise reduction with `keepdims`, read at an index, at the ideal values — for any extents `a` (rows) and `b` (columns).

  A kernel that reduces an [a, b] array over its columns and keeps the reduced axis as a unit axis prints the reduction
  into [a], a shape cast [a] → [a, 1], and, where the column is used against the full array again, a broadcast
  [a, 1] → [a, b].  Read at an index: the cast at `(p, z)` is the vector at `p`; the broadcast at `(p, q)` is the column at
  `(p, 0)`; the row's maximum at `p` is the fold of `max` from the accumulator's value over `k ↦ v (p, k)`; the row's sum at
  `p` is `∑ₖ v (p, k)`.
-/
import Idealize.ShloMosaic.PureOps.Ideal.Laws
import Idealize.ShloMosaic.Lib.ValueIdx
import Idealize.ShloMosaic.Lib.Pipeline.Value
import Mathlib.Data.Finset.Fold

noncomputable section

namespace Cert.LibRowReduce

open Idealize.ShloMosaic Idealize.ShloMosaic.ValueIdx

variable {α : Type}

/-- An `[a]` vector cast to a column `[a, 1]` reads, at `(p, z)`, the vector at `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    omega)

/-- A column `[a, 1]` broadcast to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- Row `p` with the column `k` put back is the entry `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

variable {φ : FTy}

/-- A row's maximum (a `multi_reduction <maximumf>` over the columns), at row `p`: the fold of `max` from the
    accumulator's value over the row's entries. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = Finset.univ.fold max (Ideal.ofBits φ acc) (fun k : Fin b => v (ix2 p k)) := by
  rw [Ideal.multiReduction_maximumf_single]
  show Finset.fold max _ (fun k : Fin b => v (h.lift (ix1 p) k)) (Finset.univ : Finset (Fin b)) = _
  exact Finset.fold_congr fun k _ => congrArg v (lift_row h p k)

/-- A row's sum (a `multi_reduction <add>` over the columns), at row `p`: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  show ∑ k : Fin b, v (h.lift (ix1 p) k) = _
  exact Finset.sum_congr rfl fun k _ => congrArg v (lift_row h p k)

end Cert.LibRowReduce

end
-- ==== Proof.ScaleRegion.lean ====
/-
  The first region's result: the array of per-row noise scales.

  Grid point `t` of the first region stages rows `512·t … 512·t + 511` of the logits (all 1000 columns) and writes the
  512 × 1 block of their noise scales.  Entry `(p, z)` of what the body stores is `min (0.1 · (1 + 1 · (1 / ∑ₖ exp (xₚₖ·1 - maxₖ xₚₖ·1)))) 1`
  of the staged block's row `p`: the specification's `scaleOf (recipOfSum row)`.  The eight blocks tile the 4096 × 1
  array, so after the region it holds every row's noise scale — whatever the region found in its arrays (`V`).
-/
import proofs.«138279_j20770461843629_1_alg».proof.Proof.Gen.KernelIdeal.Frame
import proofs.«138279_j20770461843629_1_alg».proof.Proof.Spec
import proofs.«138279_j20770461843629_1_alg».proof.Proof.LibRowReduce

set_option maxRecDepth 16384

noncomputable section

namespace Cert.KernelIdeal.ScaleRegion

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.RowConfidence Cert.Spec Cert.LibRowReduce

/-- The exponential of a vector, at an index. -/
theorem exp_apply {s : Shape} {φ : FTy} (v : FVec Ideal s φ) (i : s.Idx) : exp v i = Ideal.exp (v i) := rfl

/-- THE BODY'S PAYLOAD AT AN INDEX: entry `(p, z)` of the stored column is the noise scale of row `p` of the staged block. -/
theorem pay_at (x0 : Vec Ideal S512x1000 .f32) (p : Fin 512) (z : Fin 1) :
    k0_pay1 (F := Ideal) x0 (ix2 p z) = scaleOf (recipOfSum (fun k : Fin 1000 => x0 (ix2 p k))) := by
  unfold k0_pay1 scaleOf recipOfSum
  simp only [minimumf_apply, mulf_apply, addf_apply, divf_apply, broadcast_apply, shapeCast_a_a1_apply, Ideal.ofBits_def]
  refine congrArg (fun s : EReal => min (Ideal.ofBits .f32 0x3DCCCCCD#32 * (Ideal.ofBits .f32 0x3F800000#32
    + Ideal.ofBits .f32 0x3F800000#32 * Ideal.div (Ideal.ofBits .f32 0x3F800000#32) s)) (Ideal.ofBits .f32 0x3F800000#32)) ?_
  refine (rowSum_apply _ _ _ _ _ p).trans (Finset.sum_congr rfl fun k _ => ?_)
  simp only [exp_apply, subf_apply, mulf_apply, broadcast_apply, broadcastTo_a1_ab_apply, shapeCast_a_a1_apply,
    Ideal.ofBits_def]
  refine congrArg (fun M : EReal => Ideal.exp (x0 (ix2 p k) * Ideal.ofBits .f32 0x3F800000#32 - M)) ?_
  refine (rowMax_apply _ _ _ _ _ p).trans ?_
  rfl

/-- The per-row noise scales as a 4096 × 1 array. -/
def scaleArr (mo : S4096x1000.Idx → EReal) : S4096x1.Idx → EReal := fun i => rowScale mo (i 0)

theorem hz : (![0, 0] : Fin 2 → Nat) = fun _ => 0 := funext fun a => by fin_cases a <;> rfl

/-- The printed index maps over the grid: the logits' block and the scales' block are the same rows, both at column
    block 0. -/
theorem idx_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every one of the eight row blocks is some point's. -/
theorem idx_onto : ∀ q0 : Fin 8, ∃ t : Fin cfg0.N, win0_1.index t = ![q0.val, 0] :=
  (by decide +kernel : ∀ q0 : Fin 8, ∃ t : Fin grid0.N, win0_1.index t = ![q0.val, 0])

variable (V : (c : Dev nD) → (b : Ref sig .tc) → Buf (Elt Ideal) ((c : Thread nD τ).loc b))

/-- WHAT POINT `t` WRITES BACK is block `t` of the per-row noise scales of the logits as the region finds them. -/
theorem flushed_eq (c : Dev nD) (t : Fin cfg0.N) :
    (dat0 V c).flushed 1 t = ((cfg0.win 1).blk t).view.read (Elt Ideal) (scaleArr (V c main_arg1)) := by
  show (cfg0.win 1).cut (grid0.coords t) ((dat0 V c).after 1 t) = _
  rw [after0_1]
  unfold out0_1
  rw [View.canon_unit_zero hz]
  simp only [View.ld_unit_zero (S := S512x1000) hz]
  obtain ⟨e0, e1, e2⟩ := idx_facts t
  funext j
  obtain ⟨p, z, rfl⟩ : ∃ (p : Fin 512) (z : Fin 1), j = ix2 p z := ⟨j 0, j 1, eq_ix2 j⟩
  refine (pay_at (iblk0 V c 0 t) p z).trans ?_
  show scaleOf (recipOfSum (fun k : Fin 1000 => V c main_arg1 (((cfg0.win 0).blk t).view.emb (ix2 p k))))
    = scaleOf (recipOfSum (fun k : Fin 1000 => V c main_arg1 (ix2 ((((cfg0.win 1).blk t).view.emb (ix2 p z)) 0) k)))
  refine congrArg (fun r : Fin 1000 → EReal => scaleOf (recipOfSum r)) (funext fun k => ?_)
  refine congrArg (V c main_arg1) (funext fun a => Fin.ext ?_)
  match a with
  | ⟨0, _⟩ =>
    show win0_0.index t (0 : Fin 2) * 512 + 1 * p.val = win0_1.index t (0 : Fin 2) * 512 + 1 * p.val
    omega
  | ⟨1, _⟩ =>
    show win0_0.index t (1 : Fin 2) * 1000 + 1 * k.val = k.val
    omega

/-- An index of the scales' array is in point `t`'s block iff each coordinate is in the block's range on its axis. -/
theorem mem_blk (t : Fin cfg0.N) (i : S4096x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every index of the scales' array is in some point's block: row `r` in block `r / 512`. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 1 ≤ (i 1).val ∧ (i 1).val < win0_1.index t (1 : Fin 2) * 1 + 1
    omega

/-- THE SCALES' ARRAY after the first region: every row's noise scale, of the logits as the region finds them. -/
theorem final (c : Dev nD) : (dat0 V c).arrAt 1 cfg0.N = scaleArr (V c main_arg1) :=
  (dat0 V c).arrAt_eq_of_cover 1 (scaleArr (V c main_arg1)) (fun t _ => flushed_eq V c t) cover

end Cert.KernelIdeal.ScaleRegion

end
-- ==== Proof.CombineRegion.lean ====
/-
  The second region's result: the combined array, from whatever the region finds in its five arrays.

  Grid point `t = (i, j)` of the second region stages the 512 × 1024 blocks `(i, j)` of the three full-size arrays and rows
  `512·i … 512·i + 511` of the scales' column, and writes block `(i, j)` of the result.  Entry `(p, q)` of what the body stores
  is `x + (if u < 0.3 then noise · scaleₚ else 0)` of the staged blocks at `(p, q)` and the staged column at `(p, 0)`: the
  specification's `combine`.  The 8 × 4 blocks tile the 4096 × 4096 array.
-/
import proofs.«138279_j20770461843629_1_alg».proof.Proof.Gen.KernelIdeal.Frame
import proofs.«138279_j20770461843629_1_alg».proof.Proof.Spec
import proofs.«138279_j20770461843629_1_alg».proof.Proof.LibRowReduce

set_option maxRecDepth 16384

noncomputable section

namespace Cert.KernelIdeal.CombineRegion

open Cert.KernelIdeal Cert.KernelIdeal.Gen Idealize.ShloMosaic Idealize.ShloMosaic.TcCoe Idealize.SL.Sem
open Idealize.ShloMosaic.ValueIdx
open Idealize.ShloMosaic.Pipeline (Dat Cfg Window)
open Cert.Spec Cert.LibRowReduce

/-- THE BODY'S PAYLOAD AT AN INDEX: entry `(p, q)` of the stored block combines the three staged blocks at `(p, q)` with the
    staged scales' column at `(p, 0)`. -/
theorem pay_at (v0 v1 v2 : Vec Ideal S512x1024 .f32) (v3 : Vec Ideal S512x1 .f32) (p : Fin 512) (q : Fin 1024) :
    k1_pay1 (F := Ideal) v0 v1 v2 v3 (ix2 p q)
      = combine (v0 (ix2 p q)) (v1 (ix2 p q)) (v2 (ix2 p q)) (v3 (ix2 p (0 : Fin 1))) := by
  unfold k1_pay1
  simp only [addf_apply, select_apply, cmpf_apply, mulf_apply, broadcast_apply, shapeCast_self,
    broadcastTo_a1_ab_apply]
  rfl

/-- The combined array from three full-size arrays and a column of per-row scales. -/
def outArr (x ru ns : S4096x4096.Idx → EReal) (sc : S4096x1.Idx → EReal) : S4096x4096.Idx → EReal :=
  fun i => combine (x i) (ru i) (ns i) (sc (ix2 (i 0) (0 : Fin 1)))

theorem hz : (![0, 0] : Fin 2 → Nat) = fun _ => 0 := funext fun a => by fin_cases a <;> rfl

/-- The printed index maps over the grid: the three full-size inputs move with the output block on both axes; the scales'
    column moves with it on the rows and stays at column block 0. -/
theorem idx_facts : ∀ t : Fin cfg1.N,
    win1_0.index t (0 : Fin 2) = win1_4.index t (0 : Fin 2) ∧ win1_0.index t (1 : Fin 2) = win1_4.index t (1 : Fin 2)
    ∧ win1_1.index t (0 : Fin 2) = win1_4.index t (0 : Fin 2) ∧ win1_1.index t (1 : Fin 2) = win1_4.index t (1 : Fin 2)
    ∧ win1_2.index t (0 : Fin 2) = win1_4.index t (0 : Fin 2) ∧ win1_2.index t (1 : Fin 2) = win1_4.index t (1 : Fin 2)
    ∧ win1_3.index t (0 : Fin 2) = win1_4.index t (0 : Fin 2) ∧ win1_3.index t (1 : Fin 2) = 0 :=
  (by decide +kernel : ∀ t : Fin grid1.N, _)

/-- Every one of the 8 × 4 blocks is some point's. -/
theorem idx_onto : ∀ (q0 : Fin 8) (q1 : Fin 4), ∃ t : Fin cfg1.N, win1_4.index t = ![q0.val, q1.val] :=
  (by decide +kernel : ∀ (q0 : Fin 8) (q1 : Fin 4), ∃ t : Fin grid1.N, win1_4.index t = ![q0.val, q1.val])

variable (V : (c : Dev nD) → (b : Ref sig .tc) → Buf (Elt Ideal) ((c : Thread nD τ).loc b))

/-- WHAT POINT `t` WRITES BACK is block `t` of the combined array of the region's arrays as it finds them. -/
theorem flushed_eq (c : Dev nD) (t : Fin cfg1.N) :
    (dat1 V c).flushed 4 t
      = ((cfg1.win 4).blk t).view.read (Elt Ideal) (outArr (V c main_arg0) (V c main_arg2) (V c main_arg3) (V c main_v0)) := by
  show (cfg1.win 4).cut (grid1.coords t) ((dat1 V c).after 4 t) = _
  rw [after1_4]
  unfold out1_4
  rw [View.canon_unit_zero hz]
  simp only [View.ld_unit_zero (S := S512x1024) hz, View.ld_unit_zero (S := S512x1) hz]
  obtain ⟨e00, e01, e10, e11, e20, e21, e30, e31⟩ := idx_facts t
  funext j
  obtain ⟨p, q, rfl⟩ : ∃ (p : Fin 512) (q : Fin 1024), j = ix2 p q := ⟨j 0, j 1, eq_ix2 j⟩
  refine (pay_at (iblk1 V c 0 t) (iblk1 V c 1 t) (iblk1 V c 2 t) (iblk1 V c 3 t) p q).trans ?_
  show combine (V c main_arg0 (((cfg1.win 0).blk t).view.emb (ix2 p q))) (V c main_arg2 (((cfg1.win 1).blk t).view.emb (ix2 p q)))
      (V c main_arg3 (((cfg1.win 2).blk t).view.emb (ix2 p q))) (V c main_v0 (((cfg1.win 3).blk t).view.emb (ix2 p (0 : Fin 1))))
    = combine (V c main_arg0 (((cfg1.win 4).blk t).view.emb (ix2 p q))) (V c main_arg2 (((cfg1.win 4).blk t).view.emb (ix2 p q)))
      (V c main_arg3 (((cfg1.win 4).blk t).view.emb (ix2 p q)))
      (V c main_v0 (ix2 ((((cfg1.win 4).blk t).view.emb (ix2 p q)) 0) (0 : Fin 1)))
  have h0 : ((cfg1.win 0).blk t).view.emb (ix2 p q) = ((cfg1.win 4).blk t).view.emb (ix2 p q) := by
    funext a; apply Fin.ext
    match a with
    | ⟨0, _⟩ => show win1_0.index t (0 : Fin 2) * 512 + 1 * p.val = win1_4.index t (0 : Fin 2) * 512 + 1 * p.val; omega
    | ⟨1, _⟩ => show win1_0.index t (1 : Fin 2) * 1024 + 1 * q.val = win1_4.index t (1 : Fin 2) * 1024 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 512 + 1 * p.val = win1_4.index t (0 : Fin 2) * 512 + 1 * p.val; omega
    | ⟨1, _⟩ => show win1_1.index t (1 : Fin 2) * 1024 + 1 * q.val = win1_4.index t (1 : Fin 2) * 1024 + 1 * q.val; omega
  have h2 : ((cfg1.win 2).blk t).view.emb (ix2 p q) = ((cfg1.win 4).blk t).view.emb (ix2 p q) := by
    funext a; apply Fin.ext
    match a with
    | ⟨0, _⟩ => show win1_2.index t (0 : Fin 2) * 512 + 1 * p.val = win1_4.index t (0 : Fin 2) * 512 + 1 * p.val; omega
    | ⟨1, _⟩ => show win1_2.index t (1 : Fin 2) * 1024 + 1 * q.val = win1_4.index t (1 : Fin 2) * 1024 + 1 * q.val; omega
  have h3 : ((cfg1.win 3).blk t).view.emb (ix2 p (0 : Fin 1)) = ix2 ((((cfg1.win 4).blk t).view.emb (ix2 p q)) 0) (0 : Fin 1) := by
    funext a; apply Fin.ext
    match a with
    | ⟨0, _⟩ => show win1_3.index t (0 : Fin 2) * 512 + 1 * p.val = win1_4.index t (0 : Fin 2) * 512 + 1 * p.val; omega
    | ⟨1, _⟩ => show win1_3.index t (1 : Fin 2) * 1 + 1 * 0 = 0; omega
  rw [h0, h1, h2, h3]
  rfl

/-- An index of the result array is in point `t`'s block iff each coordinate is in the block's range on its axis. -/
theorem mem_blk (t : Fin cfg1.N) (i : S4096x4096.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v1).slice (win1_4.rect t)).set ↔ _
  rw [View.set_slice_whole, Rect.mem_set_unit]
  exact Iff.rfl

/-- Every index of the result array is in some point's block: `(r, s)` in block `(r / 512, s / 1024)`. -/
theorem cover (i : S4096x4096.Idx) : ∃ t : Fin cfg1.N, (cfg1.win 4).flush t = true ∧ i ∈ ((cfg1.win 4).blk t).view.set := by
  have hi0 : (i 0).val < 4096 := (i 0).isLt
  have hi1 : (i 1).val < 4096 := (i 1).isLt
  obtain ⟨t, ht⟩ := idx_onto ⟨(i 0).val / 512, by omega⟩ ⟨(i 1).val / 1024, by omega⟩
  have q0 : win1_4.index t (0 : Fin 2) = (i 0).val / 512 := congrFun ht 0
  have q1 : win1_4.index t (1 : Fin 2) = (i 1).val / 1024 := congrFun ht 1
  refine ⟨t, flush1_4 t, ?_⟩
  rw [mem_blk]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 1024 ≤ (i 1).val ∧ (i 1).val < win1_4.index t (1 : Fin 2) * 1024 + 1024
    omega

/-- THE RESULT ARRAY after the second region: the combined array of the region's arrays as it finds them. -/
theorem final (c : Dev nD) :
    (dat1 V c).arrAt 4 cfg1.N = outArr (V c main_arg0) (V c main_arg2) (V c main_arg3) (V c main_v0) :=
  (dat1 V c).arrAt_eq_of_cover 4 (outArr (V c main_arg0) (V c main_arg2) (V c main_arg3) (V c main_v0))
    (fun t _ => flushed_eq V c t) cover

end Cert.KernelIdeal.CombineRegion

end
-- ==== Proof.KernelValue.lean ====
/-
  The kernel's result is the specification `G` of the four argument arrays.

  After the run the result buffer holds what the second region's write-backs leave.  That region found the three full-size
  arguments as launched (the first region does not touch them) and, in the scales' column, what the first region left:
  every row's noise scale of the logits as launched.  The second region's combined array over that column is `G`.
-/
import proofs.«138279_j20770461843629_1_alg».proof.Proof.KernelRun
import proofs.«138279_j20770461843629_1_alg».proof.Proof.ScaleRegion
import proofs.«138279_j20770461843629_1_alg».proof.Proof.CombineRegion

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Spec

/-- The combined array over the column of per-row noise scales is the specification. -/
theorem outArr_scaleArr (x : S4096x4096.Idx → EReal) (mo : S4096x1000.Idx → EReal) (ru ns : S4096x4096.Idx → EReal) :
    CombineRegion.outArr x ru ns (ScaleRegion.scaleArr mo) = G x mo ru ns := rfl

variable (m : (ℓ : Loc nD τ sig) → Buf (Elt Ideal) ℓ) (ρ : Dev nD → PrngReg)

/-- THE RESULT BUFFER after the run is `G` of the argument arrays as launched. -/
theorem result_eq (c : Dev nD) :
    W2 m ρ c (Proc.devRef .tc main_v1)
      = G (m ((c.tc : Thread nD τ).loc main_arg0)) (m ((c.tc : Thread nD τ).loc main_arg1))
          (m ((c.tc : Thread nD τ).loc main_arg2)) (m ((c.tc : Thread nD τ).loc main_arg3)) := by
  have hs : V1 m ρ c main_v0 = ScaleRegion.scaleArr (m ((c.tc : Thread nD τ).loc main_arg1)) :=
    (W1_arr m ρ c 1).trans (ScaleRegion.final (V0 m ρ) c)
  have h0 : V1 m ρ c main_arg0 = m ((c.tc : Thread nD τ).loc main_arg0) := W1_of_ne m ρ c main_arg0 (by decide)
  have h2 : V1 m ρ c main_arg2 = m ((c.tc : Thread nD τ).loc main_arg2) := W1_of_ne m ρ c main_arg2 (by decide)
  have h3 : V1 m ρ c main_arg3 = m ((c.tc : Thread nD τ).loc main_arg3) := W1_of_ne m ρ c main_arg3 (by decide)
  refine (W2_arr m ρ c 4).trans ?_
  rw [CombineRegion.final (V1 m ρ) c, hs, h0, h2, h3]
  exact outArr_scaleArr _ _ _ _

end Cert.KernelIdeal.KernelValue

end
-- ==== Proof.RefValue.lean ====
/-
  The reference's result is the specification `G` of the four argument arrays, when every logit is a real number.

  The reference's operations are read one at a time, each at explicit coordinates: the logits divided by `1.0`; row `p`'s
  maximum (a fold of `max` from `-∞` over the 1000 columns), joined once more with `-∞`; the shifted exponentials; their row
  sum from `0`; the softmax probabilities; the largest of them in row `p` (a second fold of `max`); the noise scale of that
  confidence; and the final combination at `(p, q)`.  Up to there the terms are RowConfidence.lean's `maxOfSoftmax` of the row,
  spelt out; the law `maxOfSoftmax = recipOfSum` on a real row then gives `G`.
-/
import proofs.«138279_j20770461843629_1_alg».proof.Proof.Gen.ReferenceIdeal.Read
import proofs.«138279_j20770461843629_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.RowConfidence Cert.Spec

/-- Reducing a 4096 × 1000 array over its columns leaves 4096 entries. -/
theorem hred : S4096x1000.Reduces [1] S4096 := by decide

/-- Row `p` with column `k` put back is the entry `(p, k)`. -/
theorem lift_eq (p : Fin 4096) (k : Fin 1000) : hred.lift (ix1 p) k = ix2 p k :=
  funext fun a => Fin.ext (by match a with | ⟨0, _⟩ => rfl | ⟨1, _⟩ => rfl)

variable (x1 : (⟨S4096x1000, .f32⟩ : BufTy).Contents (Elt Ideal))

/-- The logits over `1.0`, at `(p, k)`. -/
theorem v1_at (p : Fin 4096) (k : Fin 1000) :
    val_main_v1 (F := Ideal) x1 (ix2 p k) = Ideal.div (x1 (ix2 p k)) (Ideal.ofBits .f32 0x3F800000#32) := by
  rw [val_main_v1_apply, val_main_v0_apply, val_main_cst_apply]; rfl

/-- Row `p`'s maximum: the fold of `max` from `-∞` over the columns. -/
theorem v2_at (p : Fin 4096) :
    val_main_v2 (F := Ideal) x1 (ix1 p)
      = Finset.univ.fold max (Ideal.ofBits .f32 0xFF800000#32)
          (fun k : Fin 1000 => Ideal.div (x1 (ix2 p k)) (Ideal.ofBits .f32 0x3F800000#32)) := by
  unfold val_main_v2
  rw [Host.reduce_eq_fold_single FloatOps.maximumf _ _ reducesTo_S4096x1000_S4096_d1 hred h_S_ (ix1 p)]
  show Finset.fold max (Ideal.ofBits .f32 0xFF800000#32)
    (fun k : Fin 1000 => val_main_v1 (F := Ideal) x1 (hred.lift (ix1 p) k)) (Finset.univ : Finset (Fin 1000)) = _
  refine Finset.fold_congr (fun k _ => ?_)
  show val_main_v1 (F := Ideal) x1 (hred.lift (ix1 p) k) = _
  rw [lift_eq, v1_at]

/-- A shifted exponential at `(p, k)` is the row's. -/
theorem v8_at (p : Fin 4096) (k : Fin 1000) :
    val_main_v8 (F := Ideal) x1 (ix2 p k) = softmaxExp (logitRow x1 p) k := by
  have e : idx_main_v5 (idx_main_v6 (ix2 p k)) = ix1 p :=
    funext fun a => Fin.ext (by match a with | ⟨0, _⟩ => rfl)
  rw [val_main_v8_apply, val_main_v7_apply, v1_at, val_main_v6_apply, val_main_v5_apply, val_main_v4_apply,
    val_main_v3_apply, val_main_cst_1_apply, e, v2_at]
  rfl

/-- The row sum of the shifted exponentials, from `0`. -/
theorem v9_at (p : Fin 4096) :
    val_main_v9 (F := Ideal) x1 (ix1 p)
      = Ideal.ofBits .f32 0x00000000#32 + ∑ k : Fin 1000, softmaxExp (logitRow x1 p) k := by
  rw [val_main_v9_apply, val_main_cst_2_apply]
  refine congrArg (_ + ·) (Finset.sum_congr rfl fun k _ => ?_)
  have e : idx_main_v9 (ix1 p) k = ix2 p k :=
    funext fun a => Fin.ext (by match a with | ⟨0, _⟩ => rfl | ⟨1, _⟩ => rfl)
  rw [e, v8_at]

/-- A softmax probability at `(p, k)`. -/
theorem v12_at (p : Fin 4096) (k : Fin 1000) :
    val_main_v12 (F := Ideal) x1 (ix2 p k)
      = Ideal.div (softmaxExp (logitRow x1 p) k)
          (Ideal.ofBits .f32 0x00000000#32 + ∑ k' : Fin 1000, softmaxExp (logitRow x1 p) k') := by
  have e : idx_main_v10 (idx_main_v11 (ix2 p k)) = ix1 p :=
    funext fun a => Fin.ext (by match a with | ⟨0, _⟩ => rfl)
  rw [val_main_v12_apply, v8_at, val_main_v11_apply, val_main_v10_apply, e, v9_at]
  rfl

/-- The largest softmax probability of row `p`. -/
theorem v13_at (p : Fin 4096) : val_main_v13 (F := Ideal) x1 (ix1 p) = maxOfSoftmax (logitRow x1 p) := by
  unfold val_main_v13
  rw [Host.reduce_eq_fold_single FloatOps.maximumf _ _ reducesTo_S4096x1000_S4096_d1 hred h_S_ (ix1 p)]
  show Finset.fold max (Ideal.ofBits .f32 0xFF800000#32)
    (fun k : Fin 1000 => val_main_v12 (F := Ideal) x1 (hred.lift (ix1 p) k)) (Finset.univ : Finset (Fin 1000)) = _
  unfold maxOfSoftmax
  refine Finset.fold_congr (fun k _ => ?_)
  show val_main_v12 (F := Ideal) x1 (hred.lift (ix1 p) k) = _
  rw [lift_eq, v12_at]

/-- Row `p`'s noise scale, from the largest softmax probability. -/
theorem v21_at (p : Fin 4096) : val_main_v21 (F := Ideal) x1 (ix1 p) = scaleOf (maxOfSoftmax (logitRow x1 p)) := by
  rw [val_main_v21_apply, val_main_v19_apply, val_main_v18_apply, val_main_cst_6_apply, val_main_v17_apply,
    val_main_v16_apply, val_main_cst_5_apply, val_main_v15_apply, val_main_v14_apply, val_main_cst_4_apply, v13_at,
    val_main_v20_apply, val_main_cst_7_apply]
  rfl

/-- THE REFERENCE IS `G`: on real logits its result array is the specification, index by index. -/
theorem result_eq (x0 x2 x3 : (⟨S4096x4096, .f32⟩ : BufTy).Contents (Elt Ideal))
    (hfin : ∀ i, ∃ a : ℝ, x1 i = (a : EReal)) :
    val_main_v28 (F := Ideal) x0 x1 x2 x3 = G x0 x1 x2 x3 := by
  funext i
  obtain ⟨p, q, rfl⟩ : ∃ (p : Fin 4096) (q : Fin 4096), i = ix2 p q := ⟨i 0, i 1, eq_ix2 i⟩
  have e : idx_main_v22 (idx_main_v23 (ix2 p q)) = ix1 p :=
    funext fun a => Fin.ext (by match a with | ⟨0, _⟩ => rfl)
  rw [val_main_v28_apply, val_main_v27_apply, val_main_v26_apply, val_main_v25_apply, val_main_cst_8_apply,
    val_main_v24_apply, val_main_v23_apply, val_main_v22_apply, val_main_call0_v0_apply, val_main_cst_9_apply, e, v21_at,
    maxOfSoftmax_eq_recipOfSum (logitRow x1 p) (fun k => hfin (ix2 p k))]
  rfl

end Cert.ReferenceIdeal.RefValue

end
-- ==== Proof.Finite.lean ====
/-
  What the precondition says of the logits: every entry is a real number.

  The precondition is the conjunction of four tests "every `|entry|` is below `+∞`", one per argument array, each a reduction
  by `and` from `true` over the whole array.  Taking the conjunction apart gives the logits' test; a reduction by `and` that is
  `true` had `true` at every entry; and an extended real whose absolute value `max x (-x)` is strictly below `⊤` is neither `⊤`
  nor `⊥`.  (Only the logits' finiteness is used: the other three arrays enter both programs through one and the same
  pointwise formula.)
-/
import proofs.«138279_j20770461843629_1_alg».proof.Pre_finite_inputs
import proofs.«138279_j20770461843629_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- An extended real whose absolute value is strictly below `+∞` (the f32 word `0x7F800000`) is a real number. -/
theorem real_of_abs_lt_top (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

/-- Under the precondition every logit is a real number. -/
theorem logits_real (a0 : FVec Ideal S4096x4096 .f32) (a1 : FVec Ideal S4096x1000 .f32) (a2 a3 : FVec Ideal S4096x4096 .f32)
    (h : fn (F := Ideal) a0 a1 a2 a3 = fun _ => 1#1) (i : S4096x1000.Idx) : ∃ r : ℝ, a1 i = (r : EReal) := by
  have h0 := congrFun h ix0
  dsimp only [fn, fn_part1] at h0
  obtain ⟨h13, -⟩ := IntOp.andi_eq_one.1 h0
  obtain ⟨h8, -⟩ := IntOp.andi_eq_one.1 h13
  obtain ⟨-, h7⟩ := IntOp.andi_eq_one.1 h8
  have hi := Host.reduce_andi_all _ _ _ _ _ h7 i
  exact real_of_abs_lt_top (a1 i) hi

end Cert.Pre_finite_inputs.Finite

end
-- ==== Proof.lean ====
/-
  The certificate: a per-row softmax confidence scales a masked noise that is added to `x`.

  Both programs end holding `G x logits u noise` (Proof/Spec.lean): entry `(p, q)` is `x + (if u < 0.3 then noise · scaleₚ else 0)`
  with `scaleₚ = min (0.1 · (1 + 1 · confidenceₚ)) 1`.  The kernel takes the confidence of row `p` as `1 / ∑ₖ exp (rₖ - max r)` in a
  first region and combines in a second (Proof/ScaleRegion.lean, Proof/CombineRegion.lean, joined in Proof/KernelValue.lean over
  the run of Proof/KernelRun.lean); the reference forms every softmax probability and takes the largest
  (Proof/RefValue.lean).  On a row of real numbers the two confidences are one number (Proof/RowConfidence.lean), and the
  precondition makes every logit real (Proof/Finite.lean).  The three frames are the programs' runs with the results
  dropped; the idealization rewrote nothing, so `preserves` has nothing to state.
-/
import proofs.«138279_j20770461843629_1_alg».proof.Defs
import proofs.«138279_j20770461843629_1_alg».proof.Proof.Gen.Kernel
import proofs.«138279_j20770461843629_1_alg».proof.Proof.Gen.Kernel.Skeleton
import proofs.«138279_j20770461843629_1_alg».proof.Proof.Gen.Kernel.Launch
import proofs.«138279_j20770461843629_1_alg».proof.Proof.Gen.Kernel.Points
import proofs.«138279_j20770461843629_1_alg».proof.Proof.Gen.Kernel.Frame
import proofs.«138279_j20770461843629_1_alg».proof.Proof.Gen.KernelIdeal
import proofs.«138279_j20770461843629_1_alg».proof.Proof.Gen.KernelIdeal.Skeleton
import proofs.«138279_j20770461843629_1_alg».proof.Proof.Gen.KernelIdeal.Launch
import proofs.«138279_j20770461843629_1_alg».proof.Proof.Gen.KernelIdeal.Points
import proofs.«138279_j20770461843629_1_alg».proof.Proof.Gen.KernelIdeal.Frame
import proofs.«138279_j20770461843629_1_alg».proof.Proof.Gen.ReferenceIdeal
import proofs.«138279_j20770461843629_1_alg».proof.Proof.Gen.ReferenceIdeal.Run
import proofs.«138279_j20770461843629_1_alg».proof.Proof.Gen.ReferenceIdeal.Read
import proofs.«138279_j20770461843629_1_alg».proof.Proof.Gen.Pre_finite_inputs
import proofs.«138279_j20770461843629_1_alg».proof.Proof.KernelValue
import proofs.«138279_j20770461843629_1_alg».proof.Proof.RefValue
import proofs.«138279_j20770461843629_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to state. -/
theorem preserves : Cert.preserves_Kernel_KernelIdeal := trivial

/-- From memories agreeing on the arguments both programs end holding `G` of the kernel's arguments: the kernel by its
    two regions, the reference by its operations and, the precondition making every logit real, the law that the largest
    softmax probability of a real row is the reciprocal of the sum of its shifted exponentials. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result_eq m ρ c), (h c).2⟩)
      (Cert.KernelIdeal.Run.run_main (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v28_eq _ _ _ _).trans
      (Cert.ReferenceIdeal.RefValue.result_eq _ _ _ _
        (fun i => Cert.Pre_finite_inputs.Finite.logits_real _ _ _ _ (hpre c) i))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
